-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S128x128 : Shape := ⟨2, ![128, 128]⟩
abbrev S128 : Shape := ⟨1, ![128]⟩
abbrev S800000 : Shape := ⟨1, ![800000]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn {F : FTy → Type} [FloatOps F] (main_arg0 : FVec F S50000x128 .f32) (main_arg1 : FVec F S128x128 .f32) (main_arg2 : FVec F S128 .f32) (main_arg3 : IVec S800000 32) (main_arg4 : IVec S800000 32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  main_v13
-- ==== Kernel.lean ====
abbrev S50000x128 : Shape := ⟨2, ![50000, 128]⟩
abbrev S128x128 : Shape := ⟨2, ![128, 128]⟩
abbrev S128 : Shape := ⟨1, ![128]⟩
abbrev S800000 : Shape := ⟨1, ![800000]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S5000x128 : Shape := ⟨2, ![5000, 128]⟩
abbrev S5000x1 : Shape := ⟨2, ![5000, 1]⟩
abbrev S1x128 : Shape := ⟨2, ![1, 128]⟩
abbrev S800000x128 : Shape := ⟨2, ![800000, 128]⟩

abbrev nBuf : Space → Nat
  | .hbm => 34
  | .vmem => 14
  | .smem => 0
  | _ => 0

abbrev bufTy : (tb : Table) → Fin (tcTables nBuf tb) → BufTy
  | .hbm, ⟨0, _⟩ => ⟨S50000x128, .f32⟩
  | .hbm, ⟨1, _⟩ => ⟨S128x128, .f32⟩
  | .hbm, ⟨2, _⟩ => ⟨S128, .f32⟩
  | .hbm, ⟨3, _⟩ => ⟨S800000, .i32⟩
  | .hbm, ⟨4, _⟩ => ⟨S800000, .i32⟩
  | .hbm, ⟨5, _⟩ => ⟨S_, .f32⟩
  | .hbm, ⟨6, _⟩ => ⟨S800000, .f32⟩
  | .hbm, ⟨7, _⟩ => ⟨S_, .f32⟩
  | .hbm, ⟨8, _⟩ => ⟨S50000, .f32⟩
  | .hbm, ⟨9, _⟩ => ⟨S800000x1, .i32⟩
  | .hbm, ⟨10, _⟩ => ⟨S50000, .f32⟩
  | .hbm, ⟨11, _⟩ => ⟨S_, .f32⟩
  | .hbm, ⟨12, _⟩ => ⟨S50000, .f32⟩
  | .hbm, ⟨13, _⟩ => ⟨S50000, .f32⟩
  | .hbm, ⟨14, _⟩ => ⟨S_, .f32⟩
  | .hbm, ⟨15, _⟩ => ⟨S50000, .f32⟩
  | .hbm, ⟨16, _⟩ => ⟨S50000, .f32⟩
  | .hbm, ⟨17, _⟩ => ⟨S50000x1, .f32⟩
  | .hbm, ⟨18, _⟩ => ⟨S50000x128, .f32⟩
  | .hbm, ⟨19, _⟩ => ⟨S_, .i32⟩
  | .hbm, ⟨20, _⟩ => ⟨S800000, .i32⟩
  | .hbm, ⟨21, _⟩ => ⟨S800000, .i1⟩
  | .hbm, ⟨22, _⟩ => ⟨S_, .i32⟩
  | .hbm, ⟨23, _⟩ => ⟨S800000, .i32⟩
  | .hbm, ⟨24, _⟩ => ⟨S800000, .i32⟩
  | .hbm, ⟨25, _⟩ => ⟨S800000, .i32⟩
  | .hbm, ⟨26, _⟩ => ⟨S800000x1, .i32⟩
  | .hbm, ⟨27, _⟩ => ⟨S800000x128, .f32⟩
  | .hbm, ⟨28, _⟩ => ⟨S_, .f32⟩
  | .hbm, ⟨29, _⟩ => ⟨S50000x128, .f32⟩
  | .hbm, ⟨30, _⟩ => ⟨S800000x1, .i32⟩
  | .hbm, ⟨31, _⟩ => ⟨S50000x128, .f32⟩
  | .hbm, ⟨32, _⟩ => ⟨S50000x128, .f32⟩
  | .hbm, ⟨33, _⟩ => ⟨S50000x128, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S128, .f32⟩
  | .local _ .vmem, ⟨4, _⟩ => ⟨S5000x1, .f32⟩
  | .local _ .vmem, ⟨5, _⟩ => ⟨S5000x1, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x1, .f32⟩
  | .local _ .vmem, ⟨11, _⟩ => ⟨S5000x1, .f32⟩
  | .local _ .vmem, ⟨12, _⟩ => ⟨S5000x128, .f32⟩
  | .local _ .vmem, ⟨13, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst_1 : Ref sig .tc := ⟨.hbm, 11, rfl⟩
abbrev main_v4 : Ref sig .tc := ⟨.hbm, 12, rfl⟩
abbrev main_v5 : Ref sig .tc := ⟨.hbm, 13, rfl⟩
abbrev main_cst_2 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_c : Ref sig .tc := ⟨.hbm, 19, rfl⟩
abbrev main_v10 : Ref sig .tc := ⟨.hbm, 20, rfl⟩
abbrev main_v11 : Ref sig .tc := ⟨.hbm, 21, rfl⟩
abbrev main_c_3 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_4 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S5000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  bcast_S_S50000x128 : S_.BroadcastsInDim S50000x128 (![] : Fin 0 → Fin S50000x128.rank)
  shapeCasts_S5000x128_S5000x128 : S5000x128.ShapeCasts S5000x128
  scatter_S50000_S800000x1_S800000_n_0_0_1_wf : ScatterDims.WF S50000 S800000x1 S800000 [] [0] [0] 1
  dot_S5000x128_S128x128_S5000x128_1_0_0_1_n_n_wf : DotDims.WF S5000x128 S128x128 S5000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S128.size a
  hwx0_2 : ∀ i : grid0.Coords, EltTy.bits .f32 = 32 ∨ (Rect.block (s := S128) S128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x1.size a ≤ S50000x1.size a
  hwx0_3 : ∀ i : grid0.Coords, EltTy.bits .f32 = 32 ∨ (Rect.block (s := S50000x1) S5000x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x128.size a ≤ S50000x128.size a
  hwx0_4 : ∀ i : grid0.Coords, EltTy.bits .f32 = 32 ∨ (Rect.block (s := S50000x128) S5000x128.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S50000x1.size a
  hwx1_1 : ∀ i : grid1.Coords, EltTy.bits .f32 = 32 ∨ (Rect.block (s := S50000x1) S5000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S50000x128.size a
  hwx1_2 : ∀ i : grid1.Coords, EltTy.bits .f32 = 32 ∨ (Rect.block (s := S50000x128) S5000x128.size (cc1_transform_2 i) (hinb1_2 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v8) S5000x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v9) S5000x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v20) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v8) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v21) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S50000x128 : Shape := ⟨2, ![50000, 128]⟩
abbrev S128x128 : Shape := ⟨2, ![128, 128]⟩
abbrev S128 : Shape := ⟨1, ![128]⟩
abbrev S800000 : Shape := ⟨1, ![800000]⟩
abbrev S_ : Shape := ⟨0, ![]⟩
abbrev S50000 : Shape := ⟨1, ![50000]⟩
abbrev S800000x1 : Shape := ⟨2, ![800000, 1]⟩
abbrev S1x128 : Shape := ⟨2, ![1, 128]⟩
abbrev S50000x1 : Shape := ⟨2, ![50000, 1]⟩
abbrev S800000x128 : Shape := ⟨2, ![800000, 128]⟩

abbrev nBuf : Space → Nat
  | .hbm => 41
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S128x128, .f32⟩
  | .hbm, ⟨2, _⟩ => ⟨S128, .f32⟩
  | .hbm, ⟨3, _⟩ => ⟨S800000, .i32⟩
  | .hbm, ⟨4, _⟩ => ⟨S800000, .i32⟩
  | .hbm, ⟨5, _⟩ => ⟨S_, .f32⟩
  | .hbm, ⟨6, _⟩ => ⟨S800000, .f32⟩
  | .hbm, ⟨7, _⟩ => ⟨S_, .f32⟩
  | .hbm, ⟨8, _⟩ => ⟨S50000, .f32⟩
  | .hbm, ⟨9, _⟩ => ⟨S800000x1, .i32⟩
  | .hbm, ⟨10, _⟩ => ⟨S50000, .f32⟩
  | .hbm, ⟨11, _⟩ => ⟨S_, .f32⟩
  | .hbm, ⟨12, _⟩ => ⟨S50000, .f32⟩
  | .hbm, ⟨13, _⟩ => ⟨S50000, .f32⟩
  | .hbm, ⟨14, _⟩ => ⟨S_, .f32⟩
  | .hbm, ⟨15, _⟩ => ⟨S50000, .f32⟩
  | .hbm, ⟨16, _⟩ => ⟨S50000, .f32⟩
  | .hbm, ⟨17, _⟩ => ⟨S50000x128, .f32⟩
  | .hbm, ⟨18, _⟩ => ⟨S1x128, .f32⟩
  | .hbm, ⟨19, _⟩ => ⟨S50000x128, .f32⟩
  | .hbm, ⟨20, _⟩ => ⟨S50000x128, .f32⟩
  | .hbm, ⟨21, _⟩ => ⟨S50000x1, .f32⟩
  | .hbm, ⟨22, _⟩ => ⟨S50000x128, .f32⟩
  | .hbm, ⟨23, _⟩ => ⟨S50000x128, .f32⟩
  | .hbm, ⟨24, _⟩ => ⟨S_, .i32⟩
  | .hbm, ⟨25, _⟩ => ⟨S800000, .i32⟩
  | .hbm, ⟨26, _⟩ => ⟨S800000, .i1⟩
  | .hbm, ⟨27, _⟩ => ⟨S_, .i32⟩
  | .hbm, ⟨28, _⟩ => ⟨S800000, .i32⟩
  | .hbm, ⟨29, _⟩ => ⟨S800000, .i32⟩
  | .hbm, ⟨30, _⟩ => ⟨S800000, .i32⟩
  | .hbm, ⟨31, _⟩ => ⟨S800000x1, .i32⟩
  | .hbm, ⟨32, _⟩ => ⟨S800000x128, .f32⟩
  | .hbm, ⟨33, _⟩ => ⟨S_, .f32⟩
  | .hbm, ⟨34, _⟩ => ⟨S50000x128, .f32⟩
  | .hbm, ⟨35, _⟩ => ⟨S800000x1, .i32⟩
  | .hbm, ⟨36, _⟩ => ⟨S50000x128, .f32⟩
  | .hbm, ⟨37, _⟩ => ⟨S50000x128, .f32⟩
  | .hbm, ⟨38, _⟩ => ⟨S50000x1, .f32⟩
  | .hbm, ⟨39, _⟩ => ⟨S50000x128, .f32⟩
  | .hbm, ⟨40, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst_1 : Ref sig .tc := ⟨.hbm, 11, rfl⟩
abbrev main_v4 : Ref sig .tc := ⟨.hbm, 12, rfl⟩
abbrev main_v5 : Ref sig .tc := ⟨.hbm, 13, rfl⟩
abbrev main_cst_2 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_c : Ref sig .tc := ⟨.hbm, 24, rfl⟩
abbrev main_v15 : Ref sig .tc := ⟨.hbm, 25, rfl⟩
abbrev main_v16 : Ref sig .tc := ⟨.hbm, 26, rfl⟩
abbrev main_c_3 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_4 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S_S50000x128 : S_.BroadcastsInDim S50000x128 (![] : Fin 0 → Fin S50000x128.rank)
  scatter_S50000_S800000x1_S800000_n_0_0_1_wf : ScatterDims.WF S50000 S800000x1 S800000 [] [0] [0] 1
  dot_S50000x128_S128x128_S50000x128_1_0_0_1_n_n_wf : DotDims.WF S50000x128 S128x128 S50000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf

class Facts : Prop extends Facts₀ where

variable [Facts]
-- ==== Proof.LibKeepdims.lean ====
/-
  Column layouts of a keepdims reduction, read at an index: a length-a vector recast as an [a, 1] column, and an [a, 1]
  column broadcast along the rows of an [a, b] array. (The row forms, [a] → [1, a] and [1, b] → [a, b], are the library's.)
-/
import Idealize.ShloMosaic.Lib.Pipeline.Value
import Idealize.ShloMosaic.Lib.ValueIdx

noncomputable section

namespace Idealize.ShloMosaic.Keepdims

open Idealize.ShloMosaic Idealize.ShloMosaic.ValueIdx

variable {α : Type}

/-- An `[a]` array cast to an `[a, 1]` column reads, at `(i, u)`, the operand at `i`, whatever the unit coordinate `u`:
    both positions are the i-th in row-major order. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.Keepdims

end
-- ==== Proof.Payloads.lean ====
/-
  What each kernel body stores, read at one entry of its block.

  First body (one block of 5000 rows): the stored value at (p, q) is
      (sum over k of x (p, k) * w (k, q)  +  b q) * d (p, 0)
  where x is the block of features, w the whole weight matrix, b the bias and d the block of the normalisation column.
  The two roundings to bfloat16 in front of the product are the identity on the extended reals, the product into a zero
  accumulator is the plain sum over the one contracted axis, the bias is a row broadcast down the block and the
  normalisation a column broadcast across it.

  Second body: the stored value at (p, q) is a (p, q) * d (p, 0).
-/
import proofs.«156396_j33956011442288_1_alg».proof.Proof.Gen.KernelIdeal.Skeleton
import proofs.«156396_j33956011442288_1_alg».proof.Proof.LibKeepdims
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Payloads

open Idealize.ShloMosaic Idealize.ShloMosaic.ValueIdx Idealize.ShloMosaic.Keepdims Cert.KernelIdeal Cert.KernelIdeal.Gen

/-! ## The block product's operand indices: output rows come from the left operand, output columns from the right,
    and the one contracted axis is the left operand's columns and the right operand's rows -/

theorem lhs_axis0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs_axis1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
theorem rhs_axis0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
theorem rhs_axis1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The block product into a zero accumulator, at (p, q): the sum over the contracted axis. -/
theorem blockProduct_at {φ₁ φ₂ : FTy} (x : FVec Ideal S5000x128 φ₁) (w : FVec Ideal S128x128 φ₂) (p : Fin 5000) (q : Fin 128) :
    matmul (F := Ideal) dot_S5000x128_S128x128_S5000x128_1_0_0_1_n_n none x w (constant S5000x128 .f32 0x00000000#32) (ix2 p q)
      = ∑ k : Fin 128, x (ix2 p k) * w (ix2 k q) := by
  simp only [matmul]
  rw [Ideal.matmul_constant_zero_apply, ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q) ((contrEquiv1 dot_S5000x128_S128x128_S5000x128_1_0_0_1_n_n 128 rfl rfl).symm k) = ix2 p k := funext fun a => Fin.ext (by
    match a with
    | ⟨0, _⟩ => exact lhs_axis0 _ _
    | ⟨1, _⟩ => exact (lhs_axis1 _ _).trans hk)
  have er : dot_S5000x128_S128x128_S5000x128_1_0_0_1_n_n.rhsIdx (ix2 p q) ((contrEquiv1 dot_S5000x128_S128x128_S5000x128_1_0_0_1_n_n 128 rfl rfl).symm k) = ix2 k q := funext fun a => Fin.ext (by
    match a with
    | ⟨0, _⟩ => exact (rhs_axis0 _ _).trans hk
    | ⟨1, _⟩ => exact rhs_axis1 _ _)
  rw [el, er]

/-- The first body's stored value at (p, q). -/
theorem projPayload_at (x : Vec Ideal S5000x128 .f32) (w : Vec Ideal S128x128 .f32) (b : Vec Ideal S128 .f32) (d : Vec Ideal S5000x1 .f32)
    (p : Fin 5000) (q : Fin 128) :
    k0_pay1 (F := Ideal) x w b d (ix2 p q) = (∑ k : Fin 128, x (ix2 p k) * w (ix2 k q) + b (ix1 q)) * d (ix2 p (0 : Fin 1)) := by
  unfold k0_pay1
  rw [mulf_apply, addf_apply, blockProduct_at, broadcastTo_1b_ab_apply, shapeCast_a_1a_apply, broadcastTo_a1_ab_apply, shapeCast_self]
  rfl

/-- The second body's stored value at (p, q). -/
theorem scalePayload_at (a : Vec Ideal S5000x128 .f32) (d : Vec Ideal S5000x1 .f32) (p : Fin 5000) (q : Fin 128) :
    k1_pay1 (F := Ideal) a d (ix2 p q) = a (ix2 p q) * d (ix2 p (0 : Fin 1)) := by
  unfold k1_pay1
  rw [mulf_apply, shapeCast_self, broadcastTo_a1_ab_apply, shapeCast_self]

end Cert.KernelIdeal.Payloads

end
-- ==== Proof.Spec.lean ====
/-
  One graph-convolution layer with symmetric degree normalisation, as functions of the argument arrays.

  With X the node features [50000, 128], W the weights [128, 128], b the bias [128] and d the column [50000, 1] of
  inverse square roots of the node degrees, the layer is built from two entrywise pieces:

    projScale X W b d (n, q) = (sum over k of X (n, k) * W (k, q)  +  b q) * d (n, 0)      -- projection, bias, right scaling
    scaleRows a d (n, q)     = a (n, q) * d (n, 0)                                          -- left scaling

  between which sits the neighbourhood aggregation (a gather of rows and a scatter-add), which both programs spell with
  the same host operations and which is therefore never opened. All arithmetic is on the extended reals; no law beyond
  the definitions is used, so no finiteness is needed.
-/
import Idealize.ShloMosaic.PureOps.Ideal
import Idealize.ShloMosaic.Lib.ValueIdx

noncomputable section

namespace Cert.GcnSpec

open Idealize.ShloMosaic Idealize.ShloMosaic.ValueIdx

/-- Node features and every [nodes, channels] intermediate. -/
abbrev Snd : Shape := ⟨2, ![50000, 128]⟩
/-- The weight matrix. -/
abbrev Sdd : Shape := ⟨2, ![128, 128]⟩
/-- The bias. -/
abbrev Sd : Shape := ⟨1, ![128]⟩
/-- The degree-normalisation column. -/
abbrev Sn1 : Shape := ⟨2, ![50000, 1]⟩

/-- Entry (n, q) of the projected, bias-shifted features scaled by node n's normalisation. -/
def projScaleAt (X : FVec Ideal Snd .f32) (W : FVec Ideal Sdd .f32) (b : FVec Ideal Sd .f32) (d : FVec Ideal Sn1 .f32)
    (n : Fin 50000) (q : Fin 128) : EReal :=
  (∑ k : Fin 128, X (ix2 n k) * W (ix2 k q) + b (ix1 q)) * d (ix2 n (0 : Fin 1))

/-- The same as an array. -/
def projScale (X : FVec Ideal Snd .f32) (W : FVec Ideal Sdd .f32) (b : FVec Ideal Sd .f32) (d : FVec Ideal Sn1 .f32) :
    FVec Ideal Snd .f32 :=
  fun i => projScaleAt X W b d ⟨(i 0).val, idx2_lt0 i⟩ ⟨(i 1).val, idx2_lt1 i⟩

theorem projScale_ix2 (X : FVec Ideal Snd .f32) (W : FVec Ideal Sdd .f32) (b : FVec Ideal Sd .f32) (d : FVec Ideal Sn1 .f32)
    (n : Fin 50000) (q : Fin 128) : projScale X W b d (ix2 n q) = projScaleAt X W b d n q := rfl

/-- Every row n of `a` multiplied by node n's normalisation. -/
def scaleRows (a : FVec Ideal Snd .f32) (d : FVec Ideal Sn1 .f32) : FVec Ideal Snd .f32 :=
  fun i => a i * d (ix2 (⟨(i 0).val, idx2_lt0 i⟩ : Fin 50000) (0 : Fin 1))

theorem scaleRows_ix2 (a : FVec Ideal Snd .f32) (d : FVec Ideal Sn1 .f32) (n : Fin 50000) (q : Fin 128) :
    scaleRows a d (ix2 n q) = a (ix2 n q) * d (ix2 n (0 : Fin 1)) := rfl

end Cert.GcnSpec

end
-- ==== Proof.Region0.lean ====
/-
  The first kernel region as one whole-array function: from ANY entry contents, the region's output array ends at
  `projScale X W b d`, where X, W, b, d are its four operands (features, weights, bias, normalisation column).

  The grid has ten points; point t works on rows 5000 t … 5000 t + 4999 of X, d and the output, and on the whole of W
  and b. The body's stored value at (p, q) is (sum over k of x (p, k) * w (k, q) + b q) * d (p, 0) over the blocks; each
  block read is the array at the shifted row, so what point t writes back is block t of `projScale X W b d`: the sum
  over k runs over a whole row of X and a whole column of W at every point, because the contracted axis is not tiled.
  The ten blocks cover the array (row r lies in block r / 5000), hence the whole array.
-/
import proofs.«156396_j33956011442288_1_alg».proof.Proof.Gen.KernelIdeal.Frame
import proofs.«156396_j33956011442288_1_alg».proof.Proof.Payloads
import proofs.«156396_j33956011442288_1_alg».proof.Proof.Spec
import Idealize.ShloMosaic.Lib.Pipeline.Value
import Idealize.ShloMosaic.Lib.ValueIdx

set_option maxRecDepth 16384

noncomputable section

namespace Cert.KernelIdeal.Region0

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.KernelIdeal.Payloads Cert.GcnSpec

variable (V : (c : Dev nD) → (b : Ref sig .tc) → Buf (Elt Ideal) ((c : Thread nD τ).loc b))

theorem hz : (![0, 0] : Fin 2 → Nat) = fun _ => 0 := funext fun a => by fin_cases a <;> rfl
theorem hz1 : (![0] : Fin 1 → Nat) = fun _ => 0 := funext fun a => by fin_cases a; rfl

/-- The region's four operand arrays and their blocks at a point, at their literal types. -/
abbrev featArr (c : Dev nD) : Vec Ideal S50000x128 .f32 := V c main_arg0
abbrev wtArr (c : Dev nD) : Vec Ideal S128x128 .f32 := V c main_arg1
abbrev biasArr (c : Dev nD) : Vec Ideal S128 .f32 := V c main_arg2
abbrev colArr (c : Dev nD) : Vec Ideal S50000x1 .f32 := V c main_v8
abbrev featBlk (c : Dev nD) (t : Fin cfg0.N) : Vec Ideal S5000x128 .f32 := iblk0 V c 0 t
abbrev wtBlk (c : Dev nD) (t : Fin cfg0.N) : Vec Ideal S128x128 .f32 := iblk0 V c 1 t
abbrev biasBlk (c : Dev nD) (t : Fin cfg0.N) : Vec Ideal S128 .f32 := iblk0 V c 2 t
abbrev colBlk (c : Dev nD) (t : Fin cfg0.N) : Vec Ideal S5000x1 .f32 := iblk0 V c 3 t

/-- The row-tiled windows' block index at point t is (t, 0); the weights' and the bias's is the origin. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

theorem point_lt (t : Fin cfg0.N) : t.val < 10 := Nat.lt_of_lt_of_eq t.isLt (show cfg0.N = 10 from N_0)

/-- Row p of point t's blocks is row 5000 t + p of the arrays. -/
def rowOf (t : Fin cfg0.N) (p : Fin 5000) : Fin 50000 := ⟨t.val * 5000 + p.val, by have := point_lt t; have := p.isLt; omega⟩

theorem featBlk_at (c : Dev nD) (t : Fin cfg0.N) (p : Fin 5000) (k : Fin 128) :
    featBlk V c t (ix2 p k) = featArr V c (ix2 (rowOf t p) k) := by
  show V c main_arg0 (((cfg0.win 0).blk t).view.emb (ix2 p k)) = V c main_arg0 (ix2 (rowOf t p) k)
  have h : ((cfg0.win 0).blk t).view.emb (ix2 p k) = ix2 (rowOf t p) k := by
    obtain ⟨e0, e1, -⟩ := idx_facts t
    funext a; apply Fin.ext
    match a with
    | ⟨0, _⟩ => show win0_0.index t (0 : Fin 2) * 5000 + 1 * p.val = t.val * 5000 + p.val; rw [e0]; omega
    | ⟨1, _⟩ => show win0_0.index t (1 : Fin 2) * 128 + 1 * k.val = k.val; rw [e1]; omega
  rw [h]

theorem wtBlk_at (c : Dev nD) (t : Fin cfg0.N) (k : Fin 128) (q : Fin 128) :
    wtBlk V c t (ix2 k q) = wtArr V c (ix2 k q) := by
  show V c main_arg1 (((cfg0.win 1).blk t).view.emb (ix2 k q)) = V c main_arg1 (ix2 k q)
  have h : ((cfg0.win 1).blk t).view.emb (ix2 k q) = ix2 k q := by
    obtain ⟨-, -, e2, e3, -⟩ := idx_facts t
    funext a; apply Fin.ext
    match a with
    | ⟨0, _⟩ => show win0_1.index t (0 : Fin 2) * 128 + 1 * k.val = k.val; rw [e2]; omega
    | ⟨1, _⟩ => show win0_1.index t (1 : Fin 2) * 128 + 1 * q.val = q.val; rw [e3]; omega
  rw [h]

theorem biasBlk_at (c : Dev nD) (t : Fin cfg0.N) (q : Fin 128) :
    biasBlk V c t (ix1 q) = biasArr V c (ix1 q) := by
  show V c main_arg2 (((cfg0.win 2).blk t).view.emb (ix1 q)) = V c main_arg2 (ix1 q)
  have h : ((cfg0.win 2).blk t).view.emb (ix1 q) = ix1 q := by
    obtain ⟨-, -, -, -, e4, -⟩ := idx_facts t
    funext a; apply Fin.ext
    match a with
    | ⟨0, _⟩ => show win0_2.index t (0 : Fin 1) * 128 + 1 * q.val = q.val; rw [e4]; omega
  rw [h]

theorem colBlk_at (c : Dev nD) (t : Fin cfg0.N) (p : Fin 5000) :
    colBlk V c t (ix2 p (0 : Fin 1)) = colArr V c (ix2 (rowOf t p) (0 : Fin 1)) := by
  show V c main_v8 (((cfg0.win 3).blk t).view.emb (ix2 p (0 : Fin 1))) = V c main_v8 (ix2 (rowOf t p) (0 : Fin 1))
  have h : ((cfg0.win 3).blk t).view.emb (ix2 p (0 : Fin 1)) = ix2 (rowOf t p) (0 : Fin 1) := by
    obtain ⟨-, -, -, -, -, e5, e6, -⟩ := idx_facts t
    funext a; apply Fin.ext
    match a with
    | ⟨0, _⟩ => show win0_3.index t (0 : Fin 2) * 5000 + 1 * p.val = t.val * 5000 + p.val; rw [e5]; omega
    | ⟨1, _⟩ => show win0_3.index t (1 : Fin 2) * 1 + 1 * 0 = 0; rw [e6]
  rw [h]

/-- Entry (p, q) of the output block at point t is entry (5000 t + p, q) of the output array. -/
theorem outBlk_emb (t : Fin cfg0.N) (p : Fin 5000) (q : Fin 128) :
    ((cfg0.win 4).blk t).view.emb (ix2 p q) = ix2 (rowOf t p) q := by
  obtain ⟨-, -, -, -, -, -, -, e7, e8⟩ := idx_facts t
  funext a; apply Fin.ext
  match a with
  | ⟨0, _⟩ => show win0_4.index t (0 : Fin 2) * 5000 + 1 * p.val = t.val * 5000 + p.val; rw [e7]; omega
  | ⟨1, _⟩ => show win0_4.index t (1 : Fin 2) * 128 + 1 * q.val = q.val; rw [e8]; omega

/-- What point t writes back is block t of the projected, scaled array. -/
theorem flushed_eq (c : Dev nD) (t : Fin cfg0.N) :
    (dat0 V c).flushed 4 t
      = ((cfg0.win 4).blk t).view.read (Elt Ideal) (projScale (featArr V c) (wtArr V c) (biasArr V c) (colArr V c)) := by
  show (cfg0.win 4).cut (grid0.coords t) ((dat0 V c).after 4 t) = _
  rw [after0_4]
  unfold out0_4
  rw [View.canon_unit_zero hz]
  simp only [View.ld_unit_zero (S := S5000x128) hz, View.ld_unit_zero (S := S128x128) hz, View.ld_unit_zero (S := S128) hz1,
    View.ld_unit_zero (S := S5000x1) hz]
  funext j
  obtain ⟨p, q, rfl⟩ : ∃ (p : Fin 5000) (q : Fin 128), j = ix2 p q := ⟨j 0, j 1, eq_ix2 j⟩
  show k0_pay1 (featBlk V c t) (wtBlk V c t) (biasBlk V c t) (colBlk V c t) (ix2 p q)
    = projScale (featArr V c) (wtArr V c) (biasArr V c) (colArr V c) (((cfg0.win 4).blk t).view.emb (ix2 p q))
  rw [outBlk_emb t p q, projScale_ix2, projPayload_at, biasBlk_at, colBlk_at]
  unfold projScaleAt
  refine congrArg (fun s => (s + biasArr V c (ix1 q)) * colArr V c (ix2 (rowOf t p) (0 : Fin 1))) ?_
  exact Finset.sum_congr rfl fun k _ => by rw [featBlk_at, wtBlk_at]

/-- An index is in point t's output block iff each coordinate is in the block's range on its axis. -/
theorem mem_blk (t : Fin cfg0.N) (i : S50000x128.Idx) :
    i ∈ ((cfg0.win 4).blk t).view.set ↔ ∀ a : Fin 2, win0_4.index t a * S5000x128.size a ≤ (i a).val ∧ (i a).val < win0_4.index t a * S5000x128.size a + S5000x128.size a := by
  show i ∈ ((View.whole main_v9).slice (win0_4.rect t)).set ↔ _
  rw [View.set_slice_whole, Rect.mem_set_unit]
  exact Iff.rfl

/-- Row r of the output lies in the block of point r / 5000. -/
theorem cover (i : S50000x128.Idx) : ∃ t : Fin cfg0.N, (cfg0.win 4).flush t = true ∧ i ∈ ((cfg0.win 4).blk t).view.set := by
  have hi0 : (i 0).val < 50000 := (i 0).isLt
  have hi1 : (i 1).val < 128 := (i 1).isLt
  obtain ⟨t, ht⟩ : ∃ t : Fin cfg0.N, t.val = (i 0).val / 5000 := ⟨⟨(i 0).val / 5000, by rw [show cfg0.N = 10 from N_0]; omega⟩, rfl⟩
  obtain ⟨-, -, -, -, -, -, -, e7, e8⟩ := idx_facts t
  refine ⟨t, flush0_4 t, ?_⟩
  rw [mem_blk]
  intro a
  match a with
  | ⟨0, _⟩ => show win0_4.index t (0 : Fin 2) * 5000 ≤ (i 0).val ∧ (i 0).val < win0_4.index t (0 : Fin 2) * 5000 + 5000; omega
  | ⟨1, _⟩ => show win0_4.index t (1 : Fin 2) * 128 ≤ (i 1).val ∧ (i 1).val < win0_4.index t (1 : Fin 2) * 128 + 128; omega

/-- The region's output array after the region: the projected, bias-shifted features, each row scaled by the column. -/
theorem final (c : Dev nD) : (dat0 V c).arrAt 4 cfg0.N = projScale (featArr V c) (wtArr V c) (biasArr V c) (colArr V c) :=
  (dat0 V c).arrAt_eq_of_cover 4 _ (fun t _ => flushed_eq V c t) cover

end Cert.KernelIdeal.Region0

end
-- ==== Proof.Region1.lean ====
/-
  The second kernel region as one whole-array function: from ANY entry contents, the region's output array ends at
  `scaleRows a d`, where a is its first operand (the aggregated features) and d its second (the normalisation column).

  The grid has ten points; point t works on rows 5000 t … 5000 t + 4999 of all three arrays. Each block read is the
  array at the shifted row; the body's stored value at (p, q) is a (p, q) * d (p, 0); so what point t writes back is
  block t of `scaleRows a d`. The ten blocks cover the array (row r lies in block r / 5000), hence the whole array.
-/
import proofs.«156396_j33956011442288_1_alg».proof.Proof.Gen.KernelIdeal.Frame
import proofs.«156396_j33956011442288_1_alg».proof.Proof.Payloads
import proofs.«156396_j33956011442288_1_alg».proof.Proof.Spec
import Idealize.ShloMosaic.Lib.Pipeline.Value
import Idealize.ShloMosaic.Lib.ValueIdx

set_option maxRecDepth 16384

noncomputable section

namespace Cert.KernelIdeal.Region1

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.KernelIdeal.Payloads Cert.GcnSpec

variable (V : (c : Dev nD) → (b : Ref sig .tc) → Buf (Elt Ideal) ((c : Thread nD τ).loc b))

theorem hz : (![0, 0] : Fin 2 → Nat) = fun _ => 0 := funext fun a => by fin_cases a <;> rfl

/-- The region's two operand arrays and their blocks at a point, at their literal types. -/
abbrev aggArr (c : Dev nD) : Vec Ideal S50000x128 .f32 := V c main_v20
abbrev colArr (c : Dev nD) : Vec Ideal S50000x1 .f32 := V c main_v8
abbrev aggBlk (c : Dev nD) (t : Fin cfg1.N) : Vec Ideal S5000x128 .f32 := iblk1 V c 0 t
abbrev colBlk (c : Dev nD) (t : Fin cfg1.N) : Vec Ideal S5000x1 .f32 := iblk1 V c 1 t

/-- Every window's block index at point t is (t, 0). -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0 :=
  (by decide +kernel : ∀ t : Fin grid1.N, _)

theorem point_lt (t : Fin cfg1.N) : t.val < 10 := Nat.lt_of_lt_of_eq t.isLt (show cfg1.N = 10 from N_1)

/-- Row p of point t's blocks is row 5000 t + p of the arrays. -/
def rowOf (t : Fin cfg1.N) (p : Fin 5000) : Fin 50000 := ⟨t.val * 5000 + p.val, by have := point_lt t; have := p.isLt; omega⟩

theorem aggBlk_at (c : Dev nD) (t : Fin cfg1.N) (p : Fin 5000) (q : Fin 128) :
    aggBlk V c t (ix2 p q) = aggArr V c (ix2 (rowOf t p) q) := by
  show V c main_v20 (((cfg1.win 0).blk t).view.emb (ix2 p q)) = V c main_v20 (ix2 (rowOf t p) q)
  have h : ((cfg1.win 0).blk t).view.emb (ix2 p q) = ix2 (rowOf t p) q := by
    obtain ⟨e0, e1, -⟩ := idx_facts t
    funext a; apply Fin.ext
    match a with
    | ⟨0, _⟩ => show win1_0.index t (0 : Fin 2) * 5000 + 1 * p.val = t.val * 5000 + p.val; rw [e0]; omega
    | ⟨1, _⟩ => show win1_0.index t (1 : Fin 2) * 128 + 1 * q.val = q.val; rw [e1]; omega
  rw [h]

theorem colBlk_at (c : Dev nD) (t : Fin cfg1.N) (p : Fin 5000) :
    colBlk V c t (ix2 p (0 : Fin 1)) = colArr V c (ix2 (rowOf t p) (0 : Fin 1)) := by
  show V c main_v8 (((cfg1.win 1).blk t).view.emb (ix2 p (0 : Fin 1))) = V c main_v8 (ix2 (rowOf t p) (0 : Fin 1))
  have h : ((cfg1.win 1).blk t).view.emb (ix2 p (0 : Fin 1)) = ix2 (rowOf t p) (0 : Fin 1) := by
    obtain ⟨-, -, e2, e3, -⟩ := idx_facts t
    funext a; apply Fin.ext
    match a with
    | ⟨0, _⟩ => show win1_1.index t (0 : Fin 2) * 5000 + 1 * p.val = t.val * 5000 + p.val; rw [e2]; omega
    | ⟨1, _⟩ => show win1_1.index t (1 : Fin 2) * 1 + 1 * 0 = 0; rw [e3]
  rw [h]

/-- Entry (p, q) of the output block at point t is entry (5000 t + p, q) of the output array. -/
theorem outBlk_emb (t : Fin cfg1.N) (p : Fin 5000) (q : Fin 128) :
    ((cfg1.win 2).blk t).view.emb (ix2 p q) = ix2 (rowOf t p) q := by
  obtain ⟨-, -, -, -, e4, e5⟩ := idx_facts t
  funext a; apply Fin.ext
  match a with
  | ⟨0, _⟩ => show win1_2.index t (0 : Fin 2) * 5000 + 1 * p.val = t.val * 5000 + p.val; rw [e4]; omega
  | ⟨1, _⟩ => show win1_2.index t (1 : Fin 2) * 128 + 1 * q.val = q.val; rw [e5]; omega

/-- What point t writes back is block t of the row-scaled array. -/
theorem flushed_eq (c : Dev nD) (t : Fin cfg1.N) :
    (dat1 V c).flushed 2 t = ((cfg1.win 2).blk t).view.read (Elt Ideal) (scaleRows (aggArr V c) (colArr V c)) := by
  show (cfg1.win 2).cut (grid1.coords t) ((dat1 V c).after 2 t) = _
  rw [after1_2]
  unfold out1_2
  rw [View.canon_unit_zero hz]
  simp only [View.ld_unit_zero (S := S5000x128) hz, View.ld_unit_zero (S := S5000x1) hz]
  funext j
  obtain ⟨p, q, rfl⟩ : ∃ (p : Fin 5000) (q : Fin 128), j = ix2 p q := ⟨j 0, j 1, eq_ix2 j⟩
  show k1_pay1 (aggBlk V c t) (colBlk V c t) (ix2 p q) = scaleRows (aggArr V c) (colArr V c) (((cfg1.win 2).blk t).view.emb (ix2 p q))
  rw [outBlk_emb t p q, scaleRows_ix2, scalePayload_at, aggBlk_at, colBlk_at]

/-- An index is in point t's output block iff each coordinate is in the block's range on its axis. -/
theorem mem_blk (t : Fin cfg1.N) (i : S50000x128.Idx) :
    i ∈ ((cfg1.win 2).blk t).view.set ↔ ∀ a : Fin 2, win1_2.index t a * S5000x128.size a ≤ (i a).val ∧ (i a).val < win1_2.index t a * S5000x128.size a + S5000x128.size a := by
  show i ∈ ((View.whole main_v21).slice (win1_2.rect t)).set ↔ _
  rw [View.set_slice_whole, Rect.mem_set_unit]
  exact Iff.rfl

/-- Row r of the output lies in the block of point r / 5000. -/
theorem cover (i : S50000x128.Idx) : ∃ t : Fin cfg1.N, (cfg1.win 2).flush t = true ∧ i ∈ ((cfg1.win 2).blk t).view.set := by
  have hi0 : (i 0).val < 50000 := (i 0).isLt
  have hi1 : (i 1).val < 128 := (i 1).isLt
  obtain ⟨t, ht⟩ : ∃ t : Fin cfg1.N, t.val = (i 0).val / 5000 := ⟨⟨(i 0).val / 5000, by rw [show cfg1.N = 10 from N_1]; omega⟩, rfl⟩
  obtain ⟨-, -, -, -, e4, e5⟩ := idx_facts t
  refine ⟨t, flush1_2 t, ?_⟩
  rw [mem_blk]
  intro a
  match a with
  | ⟨0, _⟩ => show win1_2.index t (0 : Fin 2) * 5000 ≤ (i 0).val ∧ (i 0).val < win1_2.index t (0 : Fin 2) * 5000 + 5000; omega
  | ⟨1, _⟩ => show win1_2.index t (1 : Fin 2) * 128 ≤ (i 1).val ∧ (i 1).val < win1_2.index t (1 : Fin 2) * 128 + 128; omega

/-- The region's output array after the region: the first operand with every row scaled by the column. -/
theorem final (c : Dev nD) : (dat1 V c).arrAt 2 cfg1.N = scaleRows (aggArr V c) (colArr V c) :=
  (dat1 V c).arrAt_eq_of_cover 2 _ (fun t _ => flushed_eq V c t) cover

end Cert.KernelIdeal.Region1

end
-- ==== Proof.RefValue.lean ====
/-
  The reference's result is the layer `gcn`.

  The reference computes, from features X, weights W, bias b, edge rows and edge columns,
      d   = (number of edges into each node + 1) ^ (-1/2), as a column,
      Hs  = (X · W + b) scaled row by row by d            = projScale X W b d,
      agg = Hs + (for every edge, row col of Hs added into row row)   = aggregate Hs rows cols,
      out = agg scaled row by row by d                     = scaleRows agg d.
  The kernel's program applies the very same host operations for d and for the aggregation, so those two are named here
  once, as the reference spells them, and never opened; only the dense stages are read at an entry: the host's product
  X · W at (n, q) is the sum over k of X (n, k) * W (k, q), the bias is broadcast down the rows, the column across them.
-/
import proofs.«156396_j33956011442288_1_alg».proof.Proof.Gen.ReferenceIdeal.Read
import proofs.«156396_j33956011442288_1_alg».proof.Proof.Spec
import Idealize.ShloMosaic.Lib.ValueIdx

noncomputable section

namespace Cert.ReferenceIdeal.RefValue

open Idealize.ShloMosaic Idealize.ShloMosaic.ValueIdx
open Cert.ReferenceIdeal Cert.ReferenceIdeal.Gen Cert.ReferenceIdeal.Read Cert.GcnSpec

/-- The degree-normalisation column d, from the edge columns: the reference's own stage. -/
abbrev normCol (cols : (⟨S800000, .i32⟩ : BufTy).Contents (Elt Ideal)) : FVec Ideal S50000x1 .f32 := val_main_v12 (F := Ideal) cols

/-- The neighbourhood aggregation of scaled features Hs: Hs plus, for every edge, the row of Hs the edge's column names
    added into the row the edge's row names (a gather of rows followed by a scatter-add into zeros). -/
def aggregate (Hs : FVec Ideal S50000x128 .f32) (rows cols : (⟨S800000, .i32⟩ : BufTy).Contents (Elt Ideal)) : FVec Ideal S50000x128 .f32 :=
  addf Hs (Host.scatterAdd scatter_S50000x128_S800000x1_S800000x128_1_0_0_1 (val_main_v22 (F := Ideal)) (val_main_v23 (F := Ideal) rows)
    (Host.gather gather_S50000x128_S800000x1_S800000x128_1_0_n_n_0_1_1128 Hs (val_main_v20 (F := Ideal) cols)))

/-- The whole layer. -/
def gcn (X : FVec Ideal S50000x128 .f32) (W : FVec Ideal S128x128 .f32) (b : FVec Ideal S128 .f32) (rows cols : (⟨S800000, .i32⟩ : BufTy).Contents (Elt Ideal)) :
    FVec Ideal S50000x128 .f32 :=
  scaleRows (aggregate (projScale X W b (normCol cols)) rows cols) (normCol cols)

/-! ## The index maps of the reference's dense stages, at explicit coordinates -/

theorem lidx_ix2 (n : Fin 50000) (q k : Fin 128) : lidx_main_v8 (ix2 n q) k = ix2 n k :=
  funext fun a => Fin.ext (by match a with | ⟨0, _⟩ => rfl | ⟨1, _⟩ => rfl)
theorem ridx_ix2 (n : Fin 50000) (q k : Fin 128) : ridx_main_v8 (ix2 n q) k = ix2 k q :=
  funext fun a => Fin.ext (by match a with | ⟨0, _⟩ => rfl | ⟨1, _⟩ => rfl)
theorem biasIdx_ix2 (n : Fin 50000) (q : Fin 128) : idx_main_v9 (idx_main_v10 (ix2 n q)) = ix1 q :=
  funext fun a => Fin.ext (by match a with | ⟨0, _⟩ => rfl)
theorem colIdx13_ix2 (n : Fin 50000) (q : Fin 128) : idx_main_v13 (ix2 n q) = ix2 n (0 : Fin 1) :=
  funext fun a => Fin.ext (by match a with | ⟨0, _⟩ => rfl | ⟨1, _⟩ => rfl)
theorem colIdx27_ix2 (n : Fin 50000) (q : Fin 128) : idx_main_v27 (ix2 n q) = ix2 n (0 : Fin 1) :=
  funext fun a => Fin.ext (by match a with | ⟨0, _⟩ => rfl | ⟨1, _⟩ => rfl)

/-- The reference's scaled projection is `projScale` of the arguments and the column. -/
theorem scaledProjection_eq (X : FVec Ideal S50000x128 .f32) (W : FVec Ideal S128x128 .f32) (b : FVec Ideal S128 .f32) (cols : (⟨S800000, .i32⟩ : BufTy).Contents (Elt Ideal)) :
    val_main_v14 (F := Ideal) X W b cols = projScale X W b (normCol cols) := by
  funext i
  obtain ⟨n, q, rfl⟩ : ∃ (n : Fin 50000) (q : Fin 128), i = ix2 n q := ⟨i 0, i 1, eq_ix2 i⟩
  rw [projScale_ix2, val_main_v14_apply, val_main_v11_apply, val_main_v8_apply, val_main_v10_apply, val_main_v9_apply, val_main_v13_apply,
    biasIdx_ix2, colIdx13_ix2]
  simp only [lidx_ix2, ridx_ix2]
  rfl

/-- The reference's aggregated features are `aggregate` of its scaled projection (the same operations, by name). -/
theorem aggregated_eq (X : FVec Ideal S50000x128 .f32) (W : FVec Ideal S128x128 .f32) (b : FVec Ideal S128 .f32) (rows cols : (⟨S800000, .i32⟩ : BufTy).Contents (Elt Ideal)) :
    val_main_v25 (F := Ideal) X W b rows cols = aggregate (val_main_v14 (F := Ideal) X W b cols) rows cols := rfl

/-- The reference's result is the layer. -/
theorem result_eq (X : FVec Ideal S50000x128 .f32) (W : FVec Ideal S128x128 .f32) (b : FVec Ideal S128 .f32) (rows cols : (⟨S800000, .i32⟩ : BufTy).Contents (Elt Ideal)) :
    val_main_v28 (F := Ideal) X W b rows cols = gcn X W b rows cols := by
  funext i
  obtain ⟨n, q, rfl⟩ : ∃ (n : Fin 50000) (q : Fin 128), i = ix2 n q := ⟨i 0, i 1, eq_ix2 i⟩
  unfold gcn
  rw [scaleRows_ix2, val_main_v28_apply, val_main_v27_apply, colIdx27_ix2, aggregated_eq, scaledProjection_eq]
  rfl

end Cert.ReferenceIdeal.RefValue

end
-- ==== Proof.Stretches.lean ====
/-
  The buffers of the kernel's program at its segment boundaries, as functions of the launch memory.

  The program is: a first stretch of host operations (the degree count and its inverse square root, as a column d);
  the first kernel region (Hs from X, W, b, d); a second stretch (the aggregation of Hs along the edges); the second
  kernel region (the final row scaling). Read here:
    * the first stretch leaves the arguments as launched and d at the reference's own column stage of the edge columns
      (the same operations, so the same term);
    * across the first region, d and the arguments are kept (they are inputs or bypassed) and Hs is its output array;
    * the second stretch leaves d alone and writes `aggregate Hs rows cols`, again the reference's own operations.
-/
import proofs.«156396_j33956011442288_1_alg».proof.Proof.Gen.KernelIdeal.Frame
import proofs.«156396_j33956011442288_1_alg».proof.Proof.RefValue
import Idealize.ShloMosaic.Lib.StableHlo.Run

set_option maxRecDepth 16384

noncomputable section

namespace Cert.KernelIdeal.Stretches

open Idealize.ShloMosaic Idealize.ShloMosaic.TcCoe Idealize.SL.Sem Idealize.ShloMosaic.StableHlo
open Cert.KernelIdeal Cert.KernelIdeal.Gen
open Cert.ReferenceIdeal.RefValue (normCol aggregate)

variable (m : (ℓ : Loc nD τ sig) → Buf (Elt Ideal) ℓ) (ρ : Dev nD → PrngReg)

/-! ## The first stretch -/

theorem entry0_arg0 (c : Dev nD) : W1 m ρ c (Proc.devRef .tc main_arg0) = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem entry0_arg1 (c : Dev nD) : W1 m ρ c (Proc.devRef .tc main_arg1) = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem entry0_arg2 (c : Dev nD) : W1 m ρ c (Proc.devRef .tc main_arg2) = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem entry0_arg3 (c : Dev nD) : W1 m ρ c (Proc.devRef .tc main_arg3) = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem entry0_arg4 (c : Dev nD) : W1 m ρ c (Proc.devRef .tc main_arg4) = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- The normalisation column when the first region is entered. -/
theorem entry0_col (c : Dev nD) : W1 m ρ c (Proc.devRef .tc main_v8) = normCol (m ((c : Thread nD τ).loc main_arg4)) := by
  show StableHlo.after hostOps0 (W0 m ρ c) (Proc.devRef .tc main_v8) = _
  after_results
  rfl

/-! ## Across the first region -/

theorem exit0_arg3 (c : Dev nD) : W2 m ρ c (Proc.devRef .tc main_arg3) = m ((c : Thread nD τ).loc main_arg3) :=
  (W2_of_ne m ρ c main_arg3 (by decide)).trans (entry0_arg3 m ρ c)
theorem exit0_arg4 (c : Dev nD) : W2 m ρ c (Proc.devRef .tc main_arg4) = m ((c : Thread nD τ).loc main_arg4) :=
  (W2_of_ne m ρ c main_arg4 (by decide)).trans (entry0_arg4 m ρ c)
/-- The column is an input of the first region: kept. -/
theorem exit0_col (c : Dev nD) : W2 m ρ c (Proc.devRef .tc main_v8) = normCol (m ((c : Thread nD τ).loc main_arg4)) :=
  ((W2_arr m ρ c 3).trans (((dat0 (V1 m ρ) c).arrAt_in 3 rfl _).trans (A_eq0 (V1 m ρ) c 3))).trans (entry0_col m ρ c)
/-- The first region's output array. -/
theorem exit0_out (c : Dev nD) : W2 m ρ c (Proc.devRef .tc main_v9) = (dat0 (V1 m ρ) c).arrAt 4 cfg0.N :=
  W2_arr m ρ c 4

/-! ## The second stretch -/

theorem entry1_col (c : Dev nD) : W3 m ρ c (Proc.devRef .tc main_v8) = normCol (m ((c : Thread nD τ).loc main_arg4)) :=
  (StableHlo.after_of_forall_not_mem (b := Proc.devRef .tc main_v8) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (exit0_col m ρ c)

/-- The aggregated features when the second region is entered, over the first region's exit contents. -/
theorem entry1_agg_raw (c : Dev nD) : W3 m ρ c (Proc.devRef .tc main_v20)
    = aggregate (W2 m ρ c (Proc.devRef .tc main_v9)) (W2 m ρ c (Proc.devRef .tc main_arg3)) (W2 m ρ c (Proc.devRef .tc main_arg4)) := by
  show StableHlo.after hostOps1 (W2 m ρ c) (Proc.devRef .tc main_v20) = _
  after_results
  rfl

theorem entry1_agg (c : Dev nD) : W3 m ρ c (Proc.devRef .tc main_v20)
    = aggregate ((dat0 (V1 m ρ) c).arrAt 4 cfg0.N) (m ((c : Thread nD τ).loc main_arg3)) (m ((c : Thread nD τ).loc main_arg4)) := by
  rw [entry1_agg_raw, exit0_out, exit0_arg3, exit0_arg4]

end Cert.KernelIdeal.Stretches

end
-- ==== Proof.KernelValue.lean ====
/-
  The kernel's program ends with its result buffer at the layer `gcn` of the launched arguments.

  Chaining the segment boundaries: the last region leaves `scaleRows a d` of its operands as entered; a is the
  second stretch's `aggregate Hs rows cols` and d the normalisation column; Hs is the first region's output,
  `projScale X W b d` of ITS operands as entered, which are the launched arguments and the same column. Together
  that is `scaleRows (aggregate (projScale X W b d) rows cols) d`, the layer.
-/
import proofs.«156396_j33956011442288_1_alg».proof.Proof.KernelRun
import proofs.«156396_j33956011442288_1_alg».proof.Proof.Region0
import proofs.«156396_j33956011442288_1_alg».proof.Proof.Region1
import proofs.«156396_j33956011442288_1_alg».proof.Proof.Stretches
import proofs.«156396_j33956011442288_1_alg».proof.Proof.RefValue

set_option maxRecDepth 16384

noncomputable section

namespace Cert.KernelIdeal.KernelValue

open Idealize.ShloMosaic Idealize.ShloMosaic.TcCoe Idealize.SL.Sem
open Cert.KernelIdeal Cert.KernelIdeal.Gen Cert.KernelIdeal.Stretches Cert.GcnSpec
open Cert.ReferenceIdeal.RefValue (normCol aggregate gcn)

variable (m : (ℓ : Loc nD τ sig) → Buf (Elt Ideal) ℓ) (ρ : Dev nD → PrngReg)

/-- The first region's output array: the scaled projection of the launched arguments. -/
theorem scaledProjection (c : Dev nD) :
    (dat0 (V1 m ρ) c).arrAt 4 cfg0.N = projScale (m ((c : Thread nD τ).loc main_arg0)) (m ((c : Thread nD τ).loc main_arg1)) (m ((c : Thread nD τ).loc main_arg2)) (normCol (m ((c : Thread nD τ).loc main_arg4))) := by
  rw [Region0.final (V1 m ρ) c]
  show projScale (W1 m ρ c (Proc.devRef .tc main_arg0)) (W1 m ρ c (Proc.devRef .tc main_arg1)) (W1 m ρ c (Proc.devRef .tc main_arg2))
    (W1 m ρ c (Proc.devRef .tc main_v8)) = _
  rw [entry0_arg0, entry0_arg1, entry0_arg2, entry0_col]

/-- The result buffer at the last boundary: the layer. -/
theorem result (c : Dev nD) :
    W4 m ρ c (Proc.devRef .tc main_v21) = gcn (m ((c : Thread nD τ).loc main_arg0)) (m ((c : Thread nD τ).loc main_arg1)) (m ((c : Thread nD τ).loc main_arg2)) (m ((c : Thread nD τ).loc main_arg3)) (m ((c : Thread nD τ).loc main_arg4)) := by
  rw [show W4 m ρ c (Proc.devRef .tc main_v21) = (dat1 (V3 m ρ) c).arrAt 2 cfg1.N from W4_arr m ρ c 2, Region1.final (V3 m ρ) c]
  show scaleRows (W3 m ρ c (Proc.devRef .tc main_v20)) (W3 m ρ c (Proc.devRef .tc main_v8)) = _
  rw [entry1_agg, entry1_col, scaledProjection]
  rfl

/-- Every weakly fair execution of the kernel's program ends with the result at the layer and the arguments unchanged. -/
theorem run : θ_run defs (onTc (τ := τ) (main (F := Ideal))) ⟨m, fun _ => 0, ρ⟩ (fun r => ∀ c : Dev nD,
      r.2.mem ((c.tc : Thread nD τ).loc main_v21) = gcn (m ((c : Thread nD τ).loc main_arg0)) (m ((c : Thread nD τ).loc main_arg1)) (m ((c : Thread nD τ).loc main_arg2)) (m ((c : Thread nD τ).loc main_arg3)) (m ((c : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => ⟨(h c).1.trans (result m ρ c), (h c).2⟩) (Cert.KernelIdeal.RunNamed.run_named m ρ)

end Cert.KernelIdeal.KernelValue

end
-- ==== Proof.lean ====
/-
  A graph-convolution layer, out = D^(-1/2) (A + I) D^(-1/2) (X W + b), with A given by its edge list and D the degrees of
  A + I: the kernel's program against its reference, over the extended reals.

  Both programs compute d = (edges into each node + 1)^(-1/2), then Hs = (X W + b) scaled row by row by d, then
  agg = Hs + (for every edge, the edge's column-row of Hs added into its row-row), then out = agg scaled row by row by d.
  They differ only in WHERE the dense stages run: the kernel's program computes Hs and out in two tiled kernel regions
  (ten blocks of 5000 rows; the product's operands rounded to bfloat16 first, which is the identity on the extended
  reals), the reference with whole-array host operations. The degree count and the aggregation are the same host
  operations in both, and are carried as one function, never opened. No algebraic law is needed beyond reading each
  stage at an entry, so the precondition is not used.

  Proof/Spec.lean states the dense stages as functions; Proof/Payloads.lean reads the two kernel bodies at an entry;
  Proof/Region0.lean and Proof/Region1.lean turn each region's ten written-back blocks into one array;
  Proof/Stretches.lean reads the host stretches between them; Proof/KernelRun.lean is the program's run with the result
  buffer named; Proof/KernelValue.lean chains these into the kernel's result; Proof/RefValue.lean reads the reference.
-/
import proofs.«156396_j33956011442288_1_alg».proof.Proof.Gen.Kernel.Frame
import proofs.«156396_j33956011442288_1_alg».proof.Proof.Gen.KernelIdeal.Frame
import proofs.«156396_j33956011442288_1_alg».proof.Proof.Gen.ReferenceIdeal.Run
import proofs.«156396_j33956011442288_1_alg».proof.Proof.Gen.ReferenceIdeal.Read
import proofs.«156396_j33956011442288_1_alg».proof.Proof.Gen.Pre_finite_inputs
import proofs.«156396_j33956011442288_1_alg».proof.Proof.KernelValue
import proofs.«156396_j33956011442288_1_alg».proof.Proof.RefValue
import proofs.«156396_j33956011442288_1_alg».proof.Defs
import Idealize.ShloMosaic.Adequacy
import Idealize.ShloMosaic.Init

noncomputable section

namespace Cert.Proof

open Idealize.ShloMosaic Idealize.ShloMosaic.TcCoe Idealize.SL.Sem

/-- The word-level program runs and keeps its arguments. -/
theorem frame_kernel : Cert.frame_Kernel := fun m ρ _ => Cert.Kernel.Gen.frame m ρ
/-- So does the idealized one. -/
theorem frame_kernelIdeal : Cert.frame_KernelIdeal := fun m ρ _ => Cert.KernelIdeal.Gen.frame m ρ
/-- The reference's run with its result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the arguments both programs end with the layer `gcn` of those arguments. -/
theorem algebraic : Cert.algebraic_KernelIdeal_ReferenceIdeal := by
  intro m ρ m' ρ' _ hagree
  refine ⟨fun c => Cert.ReferenceIdeal.RefValue.gcn (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)),
    Cert.KernelIdeal.KernelValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v28_eq, Cert.ReferenceIdeal.RefValue.result_eq,
    (hagree c).1, (hagree c).2.1, (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
